-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x16 : Shape := ⟨2, ![1600000, 16]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S1600000x16 .f32) (main_arg2 : FVec F S100000x128 .f32) (main_arg3 : FVec F S128 .f32) (main_arg4 : FVec F S128 .f32) (main_arg5 : FVec F S128x128 .f32) (main_arg6 : FVec F S128 .f32) (main_arg7 : IVec S2x1600000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S1600000x16 : Shape := ⟨2, ![1600000, 16]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S5000x128 : Shape := ⟨2, ![5000, 128]⟩
abbrev S5000 : Shape := ⟨1, ![5000]⟩
abbrev S5000x1 : Shape := ⟨2, ![5000, 1]⟩
abbrev S1x128 : Shape := ⟨2, ![1, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 70
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S100000x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x1600000, .i32⟩
  | .hbm, ⟨8, _⟩ => ⟨S100000, .i32⟩
  | .hbm, ⟨9, _⟩ => ⟨S100000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128, .f32⟩
  | .local _ .vmem, ⟨3, _⟩ => ⟨S128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000x16 : Shape := ⟨2, ![1600000, 16]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S_ : Shape := ⟨0, ![]⟩
abbrev S100000x1 : Shape := ⟨2, ![100000, 1]⟩
abbrev S1x128 : Shape := ⟨2, ![1, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S100000x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x1600000, .i32⟩
  | .hbm, ⟨8, _⟩ => ⟨S100000, .i32⟩
  | .hbm, ⟨9, _⟩ => ⟨S_, .f32⟩
  | .hbm, ⟨10, _⟩ => ⟨S100000, .f32⟩
  | .hbm, ⟨11, _⟩ => ⟨S100000x1, .f32⟩
  | .hbm, ⟨12, _⟩ => ⟨S_, .f32⟩
  | .hbm, ⟨13, _⟩ => ⟨S100000x1, .f32⟩
  | .hbm, ⟨14, _⟩ => ⟨S100000x1, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S_, .f32⟩
  | .hbm, ⟨19, _⟩ => ⟨S100000, .f32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x1600000, .i32⟩
  | .hbm, ⟨40, _⟩ => ⟨S1600000, .i32⟩
  | .hbm, ⟨41, _⟩ => ⟨S100000, .i32⟩
  | .hbm, ⟨42, _⟩ => ⟨S1700000, .i32⟩
  | .hbm, ⟨43, _⟩ => ⟨S1x1600000, .i32⟩
  | .hbm, ⟨44, _⟩ => ⟨S1600000, .i32⟩
  | .hbm, ⟨45, _⟩ => ⟨S100000, .i32⟩
  | .hbm, ⟨46, _⟩ => ⟨S1700000, .i32⟩
  | .hbm, ⟨47, _⟩ => ⟨S_, .f32⟩
  | .hbm, ⟨48, _⟩ => ⟨S1700000, .f32⟩
  | .hbm, ⟨49, _⟩ => ⟨S_, .f32⟩
  | .hbm, ⟨50, _⟩ => ⟨S100000, .f32⟩
  | .hbm, ⟨51, _⟩ => ⟨S1700000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .i1⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000, .f32⟩
  | .hbm, ⟨60, _⟩ => ⟨S_, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S1700000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x1, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_call0_v0 : Ref sig .tc := ⟨.hbm, 61, rfl⟩
abbrev main_call0_v1 : Ref sig .tc := ⟨.hbm, 62, rfl⟩
abbrev main_v42 : Ref sig .tc := ⟨.hbm, 63, rfl⟩
abbrev main_c : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call1_cst : Ref sig .tc := ⟨.hbm, 103, rfl⟩
abbrev main_call1_v0 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.RowSpec.lean ====
/-
  The arithmetic both programs perform, one row at a time, on the extended reals.

  A row of 128 entries is centred by its mean (the sum divided by the literal 128), scaled by the reciprocal
  square root of the mean of the squared centred entries plus a literal epsilon, multiplied by a gain and
  shifted by an offset, entry by entry; the normalised row is then multiplied into a 128 x 128 matrix, so that
  output entry `q` is the sum over `k` of the normalised entry `k` times the matrix entry `(k, q)`.
  The last step of the whole computation adds a per-column offset and the original entry to an aggregated
  entry and clips the result below at zero.

  The grouping of the sums and products below is the one both programs use, so no law of the extended reals
  beyond `0 + s = s` is needed to join them.
-/
import Idealize.ShloMosaic.Lib.ValueIdx
import Idealize.ShloMosaic.PureOps.Ideal.Laws

open scoped BigOperators

noncomputable section

namespace Cert.RowSpec

open Idealize.ShloMosaic

/-- The mean of a row of 128 entries: their sum over the literal `128.0`. -/
def rowMean (row : Fin 128 → EReal) : EReal :=
  Ideal.div (∑ k : Fin 128, row k) (Ideal.ofBits .f32 0x43000000#32)

/-- An entry less the row's mean. -/
def centred (row : Fin 128 → EReal) (k : Fin 128) : EReal := row k - rowMean row

/-- The row's scale: the reciprocal square root of the mean squared deviation plus the literal epsilon. -/
def rowScale (row : Fin 128 → EReal) : EReal :=
  Ideal.rsqrt (rowMean (fun k => centred row k * centred row k) + Ideal.ofBits .f32 0x3727C5AC#32)

/-- The normalised entry: centred, scaled, times the gain, plus the offset — grouped as `((c · s) · γ) + β`. -/
def normed (row g b : Fin 128 → EReal) (k : Fin 128) : EReal :=
  centred row k * rowScale row * g k + b k

/-- Entry `q` of the normalised row times the matrix `W`. -/
def projected (row g b : Fin 128 → EReal) (W : Fin 128 → Fin 128 → EReal) (q : Fin 128) : EReal :=
  ∑ k : Fin 128, normed row g b k * W k q

/-- The final entry: the aggregate plus the column offset, plus the original entry, clipped below at zero. -/
def combined (a o x : EReal) : EReal := max (a + o + x) (Ideal.ofBits .f32 0x00000000#32)

end Cert.RowSpec

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.LibColumnLayout.lean ====
/-
  Column forms of two layout operations, read at an index given by its coordinates.

  A reduction that keeps its reduced axis as a unit axis leaves a column `[a, 1]`: a shape cast of an `[a]`
  vector to `[a, 1]` reads, at `(i, u)`, the vector at `i`; and a broadcast of an `[a, 1]` column to
  `[a, b]` reads, at `(p, c)`, the column's entry of row `p`. Both at any extents.
-/
import Idealize.ShloMosaic.Lib.ValueLayout

namespace Idealize.ShloMosaic.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.Region0Payload.lean ====
/-
  What the first kernel's body stores, entry by entry.

  The body loads a block of 5000 rows of 128 entries, the gain and offset vectors and the 128 x 128 matrix. It takes
  each row's sum, keeps it as a column, divides by 128 and spreads the mean back over the row; subtracts; squares;
  takes the row sum of the squares the same way; adds the epsilon; takes the reciprocal square root; multiplies the
  centred entries by that column, by the gain row and adds the offset row; and multiplies the result into the matrix
  (both operands first changed to a narrower float format, which at the ideal values is no change, the accumulator
  the zero splat).  Read at row `p` and column `q` of the block this is `RowSpec.projected` of row `p`: the sum
  over `k` of the normalised entry `(p, k)` times the matrix entry `(k, q)`.

  The stages are named once (`meanCol`, `centredBlk`, `scaleCol`, `normBlk`) over the literal shapes, the printed
  payload is their composition by unfolding, and each stage is read at an index by the layout lemmas for a kept
  column (a cast `[a] → [a, 1]`, a broadcast `[a, 1] → [a, b]`) and a row (`[a] → [1, a]`, `[1, b] → [a, b]`).
-/
import proofs.«135919_j71743133712502_1_alg».proof.Proof.Gen.KernelIdeal.Skeleton
import proofs.«135919_j71743133712502_1_alg».proof.Proof.RowSpec
import proofs.«135919_j71743133712502_1_alg».proof.Proof.LibPlainDot
import proofs.«135919_j71743133712502_1_alg».proof.Proof.LibColumnLayout
import Idealize.ShloMosaic.Lib.ValueLayout
import Idealize.ShloMosaic.PureOps.Ideal.Laws

open scoped BigOperators

noncomputable section

namespace Cert.KernelIdeal.Region0

open Idealize.ShloMosaic Idealize.ShloMosaic.ValueIdx Idealize.ShloMosaic.ColumnLayout Cert.KernelIdeal Cert.RowSpec

/-! ## The body's stages over the literal shapes -/

/-- Each row's sum over the literal 128, kept as a column. -/
def meanCol (v : FVec Ideal S5000x128 .f32) : FVec Ideal S5000x1 .f32 :=
  divf (shapeCast S5000x1 (multiReduction .add [1] S5000 v 0x00000000#32 Gen.reduces_S5000x128_S5000 (.inl rfl) rfl)
      Gen.shapeCasts_S5000_S5000x1)
    (broadcast S5000x1 (Scalar.ofBits (F := Ideal) .f32 0x43000000#32))

/-- The block less its rows' means. -/
def centredBlk (x : FVec Ideal S5000x128 .f32) : FVec Ideal S5000x128 .f32 :=
  subf x (broadcastTo S5000x128 (meanCol x) Gen.broadcasts_S5000x1_S5000x128)

/-- Each row's scale, as a column. -/
def scaleCol (x : FVec Ideal S5000x128 .f32) : FVec Ideal S5000x1 .f32 :=
  rsqrt (addf (meanCol (mulf (centredBlk x) (centredBlk x)))
    (broadcast S5000x1 (Scalar.ofBits (F := Ideal) .f32 0x3727C5AC#32)))

/-- The normalised block. -/
def normBlk (x : FVec Ideal S5000x128 .f32) (g b : FVec Ideal S128 .f32) : FVec Ideal S5000x128 .f32 :=
  addf
    (mulf (mulf (centredBlk x) (broadcastTo S5000x128 (scaleCol x) Gen.broadcasts_S5000x1_S5000x128))
      (broadcastTo S5000x128 (shapeCast S1x128 g Gen.shapeCasts_S128_S1x128) Gen.broadcasts_S1x128_S5000x128))
    (broadcastTo S5000x128 (shapeCast S1x128 b Gen.shapeCasts_S128_S1x128) Gen.broadcasts_S1x128_S5000x128)

/-- The printed payload is the matrix product of the normalised block and the matrix, into the zero splat. -/
theorem pay_eq (x : FVec Ideal S5000x128 .f32) (g b : FVec Ideal S128 .f32) (w : FVec Ideal S128x128 .f32) :
    Gen.k0_pay1 (F := Ideal) x g b w
      = matmul dot_S5000x128_S128x128_S5000x128_1_0_0_1_n_n none (truncf .bf16 (normBlk x g b) Gen.bitsLt_bf16_f32)
          (truncf .bf16 w Gen.bitsLt_bf16_f32) (constant S5000x128 .f32 0x00000000#32) := rfl

/-! ## Each stage at an index -/

/-- The sum of row `p` of a block. -/
theorem rowSum_apply (v : FVec Ideal S5000x128 .f32) (h : S5000x128.Reduces [1] S5000)
    (hacc : (0x00000000#32 : BitVec 32) = 0x00000000#32) (p : Fin 5000) :
    multiReduction .add [1] S5000 v 0x00000000#32 h (.inl rfl) hacc (ix1 p) = ∑ k : Fin 128, v (ix2 p k) := by
  refine (Ideal.multiReduction_add_single v 0x00000000#32 h (.inl rfl) hacc (ix1 p)).trans ?_
  refine Finset.sum_congr rfl fun k _ => congrArg v ?_
  exact funext fun a => Fin.ext (by match a with | ⟨0, _⟩ => rfl | ⟨1, _⟩ => rfl)

theorem meanCol_apply (v : FVec Ideal S5000x128 .f32) (p : Fin 5000) (u : Fin 1) :
    meanCol v (ix2 p u) = rowMean (fun k => v (ix2 p k)) := by
  unfold meanCol rowMean
  show Ideal.div (shapeCast S5000x1 _ Gen.shapeCasts_S5000_S5000x1 (ix2 p u)) (Ideal.ofBits .f32 0x43000000#32) = _
  rw [shapeCast_a_a1_apply, rowSum_apply]

theorem centredBlk_apply (x : FVec Ideal S5000x128 .f32) (p : Fin 5000) (k : Fin 128) :
    centredBlk x (ix2 p k) = centred (fun k' => x (ix2 p k')) k := by
  unfold centredBlk centred
  show x (ix2 p k) - broadcastTo S5000x128 (meanCol x) Gen.broadcasts_S5000x1_S5000x128 (ix2 p k) = _
  rw [broadcastTo_a1_ab_apply, meanCol_apply]

theorem scaleCol_apply (x : FVec Ideal S5000x128 .f32) (p : Fin 5000) (u : Fin 1) :
    scaleCol x (ix2 p u) = rowScale (fun k => x (ix2 p k)) := by
  unfold scaleCol rowScale
  show Ideal.rsqrt (meanCol (mulf (centredBlk x) (centredBlk x)) (ix2 p u) + Ideal.ofBits .f32 0x3727C5AC#32) = _
  rw [meanCol_apply]
  refine congrArg (fun s => Ideal.rsqrt (rowMean s + _)) (funext fun k => ?_)
  show centredBlk x (ix2 p k) * centredBlk x (ix2 p k) = _
  rw [centredBlk_apply]

theorem normBlk_apply (x : FVec Ideal S5000x128 .f32) (g b : FVec Ideal S128 .f32) (p : Fin 5000) (k : Fin 128) :
    normBlk x g b (ix2 p k)
      = normed (fun k' => x (ix2 p k')) (fun k' => g (ix1 k')) (fun k' => b (ix1 k')) k := by
  unfold normBlk normed
  show centredBlk x (ix2 p k) * broadcastTo S5000x128 (scaleCol x) Gen.broadcasts_S5000x1_S5000x128 (ix2 p k)
        * broadcastTo S5000x128 (shapeCast S1x128 g Gen.shapeCasts_S128_S1x128) Gen.broadcasts_S1x128_S5000x128 (ix2 p k)
      + broadcastTo S5000x128 (shapeCast S1x128 b Gen.shapeCasts_S128_S1x128) Gen.broadcasts_S1x128_S5000x128 (ix2 p k) = _
  rw [broadcastTo_a1_ab_apply, broadcastTo_1b_ab_apply, broadcastTo_1b_ab_apply, shapeCast_a_1a_apply, shapeCast_a_1a_apply,
    centredBlk_apply, scaleCol_apply]

/-- THE PAYLOAD AT AN ENTRY: row `p` of the block, normalised and multiplied into column `q` of the matrix. -/
theorem k0_pay1_apply (x : FVec Ideal S5000x128 .f32) (g b : FVec Ideal S128 .f32) (w : FVec Ideal S128x128 .f32)
    (p : Fin 5000) (q : Fin 128) :
    Gen.k0_pay1 (F := Ideal) x g b w (ix2 p q)
      = projected (fun k => x (ix2 p k)) (fun k => g (ix1 k)) (fun k => b (ix1 k)) (fun k q' => w (ix2 k q')) q := by
  rw [pay_eq]
  refine (PlainDot.matmul_zero_apply dot_S5000x128_S128x128_S5000x128_1_0_0_1_n_n rfl rfl rfl rfl rfl rfl rfl rfl none
    (truncf .bf16 (normBlk x g b) Gen.bitsLt_bf16_f32) (truncf .bf16 w Gen.bitsLt_bf16_f32) p q).trans ?_
  unfold projected
  refine Finset.sum_congr rfl fun k _ => ?_
  show normBlk x g b (ix2 p k) * w (ix2 k q) = _
  rw [normBlk_apply]

end Cert.KernelIdeal.Region0

end
-- ==== Proof.Region0Value.lean ====
/-
  The array the first kernel leaves, entry by entry.

  The grid has 20 points; point `t` reads rows `5000 t … 5000 t + 4999` of the input array (all 128 columns), the whole
  gain and offset vectors and the whole matrix, and writes back the same rows of the output array. So the entry
  `(p, q)` of what point `t` writes back is `RowSpec.projected` of input row `5000 t + p`, and since every row `r`
  lies in the block of point `r / 5000`, the output array after the run holds, at `(r, q)`, `RowSpec.projected` of
  input row `r` at column `q` — for whatever contents the region finds in its arrays.
-/
import proofs.«135919_j71743133712502_1_alg».proof.Proof.Gen.KernelIdeal.Frame
import proofs.«135919_j71743133712502_1_alg».proof.Proof.Region0Payload
import Idealize.ShloMosaic.Lib.Pipeline.Value

set_option maxRecDepth 16384

open scoped BigOperators

noncomputable section

namespace Cert.KernelIdeal.Region0

open Idealize.ShloMosaic Idealize.ShloMosaic.TcCoe Idealize.ShloMosaic.ValueIdx Idealize.SL.Sem
open Cert.KernelIdeal Cert.KernelIdeal.Gen Cert.RowSpec

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The printed index maps over the 20 points: the row block is the point's number, every other block index is zero. -/
theorem idx_facts : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A point's row `p` is a row of the array. -/
theorem row_lt (t : Fin cfg0.N) (p : Fin 5000) : t.val * 5000 + p.val < 100000 := by
  have ht : t.val < 20 := lt_of_lt_of_eq t.isLt N_0
  have hp := p.isLt
  omega

/-- The array row a point's block row is. -/
abbrev rowOf (t : Fin cfg0.N) (p : Fin 5000) : Fin 100000 := ⟨t.val * 5000 + p.val, row_lt t p⟩

/-- The input block of point `t` is rows `5000 t …` of the input array. -/
theorem xblk_read (c : Dev nD) (t : Fin cfg0.N) (p : Fin 5000) (k : Fin 128) :
    iblk0 V c 0 t (ix2 p k) = V c main_arg0 (ix2 (rowOf t p) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The gain vector's block is the whole vector, at every point. -/
theorem gblk_read (c : Dev nD) (t : Fin cfg0.N) (k : Fin 128) : iblk0 V c 1 t (ix1 k) = V c main_arg3 (ix1 k) := by
  obtain ⟨-, -, e2, -⟩ := idx_facts t
  show V c main_arg3 (((cfg0.win 1).blk t).view.emb (ix1 k)) = _
  refine congrArg (V c main_arg3) (funext fun a => Fin.ext ?_)
  match a with
  | ⟨0, _⟩ => show win0_1.index t (0 : Fin 1) * 128 + 1 * k.val = k.val; omega

/-- The offset vector's block is the whole vector, at every point. -/
theorem bblk_read (c : Dev nD) (t : Fin cfg0.N) (k : Fin 128) : iblk0 V c 2 t (ix1 k) = V c main_arg4 (ix1 k) := by
  obtain ⟨-, -, -, e3, -⟩ := idx_facts t
  show V c main_arg4 (((cfg0.win 2).blk t).view.emb (ix1 k)) = _
  refine congrArg (V c main_arg4) (funext fun a => Fin.ext ?_)
  match a with
  | ⟨0, _⟩ => show win0_2.index t (0 : Fin 1) * 128 + 1 * k.val = k.val; omega

/-- The matrix's block is the whole matrix, at every point. -/
theorem wblk_read (c : Dev nD) (t : Fin cfg0.N) (k q : Fin 128) : iblk0 V c 3 t (ix2 k q) = V c main_arg5 (ix2 k q) := by
  obtain ⟨-, -, -, -, e4, e5, -⟩ := idx_facts t
  show V c main_arg5 (((cfg0.win 3).blk t).view.emb (ix2 k q)) = _
  refine congrArg (V c main_arg5) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The output array's entries as one function of the arrays the region finds: row `r` normalised and multiplied
    into column `q` of the matrix. -/
def xlArr (c : Dev nD) : S100000x128.Idx → EReal := fun i =>
  projected (fun k => V c main_arg0 (ix2 (⟨(i 0).val, (i 0).isLt⟩ : Fin 100000) k)) (fun k => V c main_arg3 (ix1 k))
    (fun k => V c main_arg4 (ix1 k)) (fun k q' => V c main_arg5 (ix2 k q')) (⟨(i 1).val, (i 1).isLt⟩ : Fin 128)

theorem xlArr_apply (c : Dev nD) (r : Fin 100000) (q : Fin 128) :
    xlArr V c (ix2 r q) = projected (fun k => V c main_arg0 (ix2 r k)) (fun k => V c main_arg3 (ix1 k))
      (fun k => V c main_arg4 (ix1 k)) (fun k q' => V c main_arg5 (ix2 k q')) q := rfl

/-- WHAT POINT `t` WRITES BACK is block `t` of `xlArr`. -/
theorem flushed_eq (c : Dev nD) (t : Fin cfg0.N) :
    (dat0 V c).flushed 4 t = ((cfg0.win 4).blk t).view.read (Elt Ideal) (xlArr V c) := by
  show (cfg0.win 4).cut (grid0.coords t) ((dat0 V c).after 4 t) = _
  rw [after0_4]
  unfold out0_4
  rw [View.canon_unit_zero off2]
  simp only [View.ld_unit_zero (S := S5000x128) off2, View.ld_unit_zero (S := S128) off1,
    View.ld_unit_zero (S := S128x128) off2]
  funext j
  obtain ⟨p, q, rfl⟩ : ∃ (p : Fin 5000) (q : Fin 128), j = ix2 p q := ⟨j 0, j 1, eq_ix2 j⟩
  obtain ⟨-, -, -, -, -, -, e6, e7⟩ := idx_facts t
  have hemb : ((cfg0.win 4).blk t).view.emb (ix2 p q) = ix2 (rowOf t p) q := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  show k0_pay1 (F := Ideal) (iblk0 V c 0 t) (iblk0 V c 1 t) (iblk0 V c 2 t) (iblk0 V c 3 t) (ix2 p q)
    = xlArr V c (((cfg0.win 4).blk t).view.emb (ix2 p q))
  rw [hemb, xlArr_apply]
  refine (k0_pay1_apply (iblk0 V c 0 t) (iblk0 V c 1 t) (iblk0 V c 2 t) (iblk0 V c 3 t) p q).trans ?_
  simp only [xblk_read, gblk_read, bblk_read, wblk_read]

/-- An index of the output array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v0).slice (win0_4.rect t)).set ↔ _
  rw [View.set_slice_whole, Rect.mem_set_unit]
  exact Iff.rfl

/-- Every entry of the output array is in the block of the point its row divided by 5000 names. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, e6, e7⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- THE OUTPUT ARRAY AFTER THE REGION, at `(r, q)`: row `r` of the input the region found, normalised and multiplied
    into column `q` of the matrix it found. -/
theorem arrAt_apply (c : Dev nD) (r : Fin 100000) (q : Fin 128) :
    (dat0 V c).arrAt 4 cfg0.N (ix2 r q)
      = projected (fun k => V c main_arg0 (ix2 r k)) (fun k => V c main_arg3 (ix1 k))
          (fun k => V c main_arg4 (ix1 k)) (fun k q' => V c main_arg5 (ix2 k q')) q := by
  rw [(dat0 V c).arrAt_eq_of_cover 4 (xlArr V c) (fun t _ => flushed_eq V c t) cover]
  exact xlArr_apply V c r q

end Cert.KernelIdeal.Region0

end
-- ==== Proof.Region1Value.lean ====
/-
  The array the second kernel leaves, entry by entry.

  The body loads a block of 5000 rows of the aggregated array, the whole column-offset vector and the same rows of
  the original input, adds the offset row to every aggregated row, adds the original entries, and clips below at zero.
  Point `t` of the 20 works on rows `5000 t … 5000 t + 4999`, and every row lies in the block of the point its number
  divided by 5000 names; so the output array after the run holds, at `(r, q)`, `RowSpec.combined` of the aggregated
  entry, the offset of column `q` and the original entry — for whatever contents the region finds in its arrays.
-/
import proofs.«135919_j71743133712502_1_alg».proof.Proof.Gen.KernelIdeal.Frame
import proofs.«135919_j71743133712502_1_alg».proof.Proof.RowSpec
import Idealize.ShloMosaic.Lib.ValueLayout
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.RowSpec

/-! ## The body's payload at an entry -/

/-- The printed payload over the literal shapes: sum, sum, clip. -/
theorem pay_eq (a : FVec Ideal S5000x128 .f32) (o : FVec Ideal S128 .f32) (x : FVec Ideal S5000x128 .f32) :
    k1_pay1 (F := Ideal) a o x
      = maximumf (addf (addf (shapeCast S5000x128 a Gen.shapeCasts_S5000x128_S5000x128)
            (broadcastTo S5000x128 (shapeCast S1x128 o Gen.shapeCasts_S128_S1x128) Gen.broadcasts_S1x128_S5000x128)) x)
          (broadcast S5000x128 (Scalar.ofBits (F := Ideal) .f32 0x00000000#32)) := rfl

theorem k1_pay1_apply (a : FVec Ideal S5000x128 .f32) (o : FVec Ideal S128 .f32) (x : FVec Ideal S5000x128 .f32)
    (p : Fin 5000) (q : Fin 128) :
    k1_pay1 (F := Ideal) a o x (ix2 p q) = combined (a (ix2 p q)) (o (ix1 q)) (x (ix2 p q)) := by
  rw [pay_eq]
  unfold combined
  show max (shapeCast S5000x128 a Gen.shapeCasts_S5000x128_S5000x128 (ix2 p q)
      + broadcastTo S5000x128 (shapeCast S1x128 o Gen.shapeCasts_S128_S1x128) Gen.broadcasts_S1x128_S5000x128 (ix2 p q)
      + x (ix2 p q)) (Ideal.ofBits .f32 0x00000000#32) = _
  rw [shapeCast_self, broadcastTo_1b_ab_apply, shapeCast_a_1a_apply]

/-! ## From blocks to the array -/

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The printed index maps over the 20 points: the row block is the point's number, every other block index is zero. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem row_lt (t : Fin cfg1.N) (p : Fin 5000) : t.val * 5000 + p.val < 100000 := by
  have ht : t.val < 20 := lt_of_lt_of_eq t.isLt N_1
  have hp := p.isLt
  omega

/-- The array row a point's block row is. -/
abbrev rowOf (t : Fin cfg1.N) (p : Fin 5000) : Fin 100000 := ⟨t.val * 5000 + p.val, row_lt t p⟩

/-- The aggregated block of point `t` is rows `5000 t …` of the aggregated array. -/
theorem ablk_read (c : Dev nD) (t : Fin cfg1.N) (p : Fin 5000) (q : Fin 128) :
    iblk1 V c 0 t (ix2 p q) = V c main_v45 (ix2 (rowOf t p) q) := by
  obtain ⟨e0, e1, -⟩ := idx_facts t
  show V c main_v45 (((cfg1.win 0).blk t).view.emb (ix2 p q)) = _
  refine congrArg (V c main_v45) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The offset vector's block is the whole vector, at every point. -/
theorem oblk_read (c : Dev nD) (t : Fin cfg1.N) (q : Fin 128) : iblk1 V c 1 t (ix1 q) = V c main_arg6 (ix1 q) := by
  obtain ⟨-, -, e2, -⟩ := idx_facts t
  show V c main_arg6 (((cfg1.win 1).blk t).view.emb (ix1 q)) = _
  refine congrArg (V c main_arg6) (funext fun a => Fin.ext ?_)
  match a with
  | ⟨0, _⟩ => show win1_1.index t (0 : Fin 1) * 128 + 1 * q.val = q.val; omega

/-- The original input's block of point `t` is rows `5000 t …` of the input array. -/
theorem xblk_read (c : Dev nD) (t : Fin cfg1.N) (p : Fin 5000) (q : Fin 128) :
    iblk1 V c 2 t (ix2 p q) = V c main_arg0 (ix2 (rowOf t p) q) := by
  obtain ⟨-, -, -, e3, e4, -⟩ := idx_facts t
  show V c main_arg0 (((cfg1.win 2).blk t).view.emb (ix2 p q)) = _
  refine congrArg (V c main_arg0) (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * q.val = q.val; omega

/-- The output array's entries as one function of the arrays the region finds. -/
def outArr (c : Dev nD) : S100000x128.Idx → EReal := fun i =>
  combined (V c main_v45 (ix2 (⟨(i 0).val, (i 0).isLt⟩ : Fin 100000) (⟨(i 1).val, (i 1).isLt⟩ : Fin 128)))
    (V c main_arg6 (ix1 (⟨(i 1).val, (i 1).isLt⟩ : Fin 128)))
    (V c main_arg0 (ix2 (⟨(i 0).val, (i 0).isLt⟩ : Fin 100000) (⟨(i 1).val, (i 1).isLt⟩ : Fin 128)))

theorem outArr_apply (c : Dev nD) (r : Fin 100000) (q : Fin 128) :
    outArr V c (ix2 r q) = combined (V c main_v45 (ix2 r q)) (V c main_arg6 (ix1 q)) (V c main_arg0 (ix2 r q)) := rfl

/-- WHAT POINT `t` WRITES BACK is block `t` of `outArr`. -/
theorem flushed_eq (c : Dev nD) (t : Fin cfg1.N) :
    (dat1 V c).flushed 3 t = ((cfg1.win 3).blk t).view.read (Elt Ideal) (outArr V c) := by
  show (cfg1.win 3).cut (grid1.coords t) ((dat1 V c).after 3 t) = _
  rw [after1_3]
  unfold out1_3
  rw [View.canon_unit_zero off2]
  simp only [View.ld_unit_zero (S := S5000x128) off2, View.ld_unit_zero (S := S128) off1]
  funext j
  obtain ⟨p, q, rfl⟩ : ∃ (p : Fin 5000) (q : Fin 128), j = ix2 p q := ⟨j 0, j 1, eq_ix2 j⟩
  obtain ⟨-, -, -, -, -, e5, e6⟩ := idx_facts t
  have hemb : ((cfg1.win 3).blk t).view.emb (ix2 p q) = ix2 (rowOf t p) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (F := Ideal) (iblk1 V c 0 t) (iblk1 V c 1 t) (iblk1 V c 2 t) (ix2 p q)
    = outArr V c (((cfg1.win 3).blk t).view.emb (ix2 p q))
  rw [hemb, outArr_apply]
  refine (k1_pay1_apply (iblk1 V c 0 t) (iblk1 V c 1 t) (iblk1 V c 2 t) p q).trans ?_
  rw [ablk_read, oblk_read, xblk_read]

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v46).slice (win1_3.rect t)).set ↔ _
  rw [View.set_slice_whole, Rect.mem_set_unit]
  exact Iff.rfl

/-- Every entry of the output array is in the block of the point its row divided by 5000 names. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, e5, e6⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- THE OUTPUT ARRAY AFTER THE REGION, at `(r, q)`. -/
theorem arrAt_apply (c : Dev nD) (r : Fin 100000) (q : Fin 128) :
    (dat1 V c).arrAt 3 cfg1.N (ix2 r q)
      = combined (V c main_v45 (ix2 r q)) (V c main_arg6 (ix1 q)) (V c main_arg0 (ix2 r q)) := by
  rw [(dat1 V c).arrAt_eq_of_cover 3 (outArr V c) (fun t _ => flushed_eq V c t) cover]
  exact outArr_apply V c r q

end Cert.KernelIdeal.Region1

end
-- ==== Proof.KernelBetween.lean ====
/-
  Between the two kernels the program aggregates the first kernel's result over the graph's edges on the host:
  self loops are appended to the edge list, each node's degree is counted at the destinations, every edge gets the
  coefficient `d(src)^(-1/2) · d(dst)^(-1/2)` (zero where a degree is not positive), each edge's source row is scaled
  by its coefficient, and the scaled rows are added up at the destinations.

  `agg` below is that chain as one function of the node array and the edge list, in the printed operations and
  their order. The array the second kernel finds in its first window is `agg` of what the first kernel left, and
  the arguments it reads are as launched.
-/
import proofs.«135919_j71743133712502_1_alg».proof.Proof.Gen.KernelIdeal.Frame
import Idealize.ShloMosaic.Lib.StableHlo.Run

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen

variable {F : FTy → Type} [FloatOps F]

/-- Every edge's source node, the self loops (node `n` to node `n`) appended. -/
def srcs (e : (⟨S2x1600000, .i32⟩ : BufTy).Contents (Elt F)) : (⟨S1700000, .i32⟩ : BufTy).Contents (Elt F) :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

/-- Every edge's destination node, the self loops appended. -/
def dsts (e : (⟨S2x1600000, .i32⟩ : BufTy).Contents (Elt F)) : (⟨S1700000, .i32⟩ : BufTy).Contents (Elt F) :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

/-- A node list as a column of positions to read at: a negative entry is first moved up by the node count. -/
def wrapped (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Each node's degree: ones added up at the destinations. -/
def degree (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dsts (F := F) e))
    (broadcastInDim S1700000 ![] bcast_S_S1700000 (constant S_ .f32 0x3F800000#32))

/-- The reciprocal square root of the degree clipped below at one, and zero where the degree is not positive. -/
def invSqrtDeg (e : (⟨S2x1600000, .i32⟩ : BufTy).Contents (Elt F)) : (⟨S100000, .f32⟩ : BufTy).Contents (Elt F) :=
  select (cmpf .ogt (degree (F := F) e) (broadcastInDim S100000 ![] bcast_S_S100000 (constant S_ .f32 0x00000000#32)))
    (Host.rsqrt (maximumf (degree (F := F) e) (broadcastInDim S100000 ![] bcast_S_S100000 (constant S_ .f32 0x3F800000#32))))
    (broadcastInDim S100000 ![] bcast_S_S100000 (id (constant S_ .f32 0x00000000#32)))

/-- Each edge's coefficient: the product of that quantity at its source and at its destination. -/
def coef (e : (⟨S2x1600000, .i32⟩ : BufTy).Contents (Elt F)) : (⟨S1700000, .f32⟩ : BufTy).Contents (Elt F) :=
  mulf (Host.gather gather_S100000_S1700000x1_S1700000_n_0_n_n_0_1_1 (invSqrtDeg (F := F) e) (wrapped (F := F) (srcs (F := F) e)))
    (Host.gather gather_S100000_S1700000x1_S1700000_n_0_n_n_0_1_1 (invSqrtDeg (F := F) e) (wrapped (F := F) (dsts (F := F) e)))

/-- THE AGGREGATE of a node array `xl` over the edges `e`: each edge's source row times the edge's coefficient, added up
    at the edge's destination. -/
def agg (xl : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (dsts (F := F) e))
    (mulf (Host.gather gather_S100000x128_S1700000x1_S1700000x128_1_0_n_n_0_1_1128 xl (wrapped (F := F) (srcs (F := F) e)))
      (broadcastInDim S1700000x128 ![0, 1] bcast_S1700000x1_S1700000x128_0_1
        (broadcastInDim S1700000x1 ![0] bcast_S1700000_S1700000x1_0 (coef (F := F) e))))

variable (m : (ℓ : Loc nD τ sig) → Buf (Elt F) ℓ) (ρ : Dev nD → PrngReg)

set_option maxHeartbeats 8000000 in
/-- The second kernel's first window holds the aggregate of the first kernel's result over the launched edge list. -/
theorem entry_agg (c : Dev nD) :
    W4 m ρ c (Proc.devRef .tc main_v45)
      = agg (F := F) (W1 m ρ c (Proc.devRef .tc main_v0)) (W1 m ρ c (Proc.devRef .tc main_arg7)) := by
  dsimp only [W4, W3, W2]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  (try simp only [TRef.ofBuf, TRef.toBuf, cast_eq])
  rfl

/-- The edge list the aggregation reads is the launched one: the first kernel has no window on it. -/
theorem edges_kept (c : Dev nD) : W1 m ρ c (Proc.devRef .tc main_arg7) = m ((c : Thread nD τ).loc main_arg7) :=
  W1_of_ne m ρ c main_arg7 (by decide)

/-- The second kernel finds the original input as launched. -/
theorem entry_arg0 (c : Dev nD) : W4 m ρ c (Proc.devRef .tc main_arg0) = m ((c : Thread nD τ).loc main_arg0) :=
  ((W5_arr m ρ c 2).trans (((dat1 (V4 m ρ) c).arrAt_in 2 rfl _).trans (A_eq1 (V4 m ρ) c 2))).symm.trans (W5_main_arg0 m ρ c)

/-- The second kernel finds the column offsets as launched. -/
theorem entry_arg6 (c : Dev nD) : W4 m ρ c (Proc.devRef .tc main_arg6) = m ((c : Thread nD τ).loc main_arg6) :=
  ((W5_arr m ρ c 1).trans (((dat1 (V4 m ρ) c).arrAt_in 1 rfl _).trans (A_eq1 (V4 m ρ) c 1))).symm.trans (W5_main_arg6 m ρ c)

end Cert.KernelIdeal.Between

end
-- ==== Proof.RefValue.lean ====
/-
  The reference, entry by entry, over its stages.

  Row `r` of the normalised array is `RowSpec.normed` of input row `r` (the host's sums start from the literal
  zero, which adds nothing; its quotient and reciprocal square root are the kernel's at the ideal values), the
  projected array's entry `(r, q)` is `RowSpec.projected` of that row, the aggregate is the shared chain `agg` of the
  projected array and the edge list, and the result's entry `(r, q)` is `RowSpec.combined` of the aggregate's entry,
  the offset of column `q` and the input's entry.
-/
import proofs.«135919_j71743133712502_1_alg».proof.Proof.RefRead
import proofs.«135919_j71743133712502_1_alg».proof.Proof.RowSpec

open scoped BigOperators

noncomputable section

namespace Cert.ReferenceIdeal.RefValue

open Idealize.ShloMosaic Idealize.ShloMosaic.ValueIdx
open Cert.ReferenceIdeal Cert.ReferenceIdeal.Gen Cert.ReferenceIdeal.Read Cert.RowSpec

/-! ## The shared chain, in this program's operations -/

section Chain

variable {F : FTy → Type} [FloatOps F]

/-- Every edge's source node, the self loops (node `n` to node `n`) appended. -/
def srcs (e : (⟨S2x1600000, .i32⟩ : BufTy).Contents (Elt F)) : (⟨S1700000, .i32⟩ : BufTy).Contents (Elt F) :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

/-- Every edge's destination node, the self loops appended. -/
def dsts (e : (⟨S2x1600000, .i32⟩ : BufTy).Contents (Elt F)) : (⟨S1700000, .i32⟩ : BufTy).Contents (Elt F) :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

/-- A node list as a column of positions to read at: a negative entry is first moved up by the node count. -/
def wrapped (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Each node's degree: ones added up at the destinations. -/
def degree (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dsts (F := F) e))
    (broadcastInDim S1700000 ![] bcast_S_S1700000 (constant S_ .f32 0x3F800000#32))

/-- The reciprocal square root of the degree clipped below at one, and zero where the degree is not positive. -/
def invSqrtDeg (e : (⟨S2x1600000, .i32⟩ : BufTy).Contents (Elt F)) : (⟨S100000, .f32⟩ : BufTy).Contents (Elt F) :=
  select (cmpf .ogt (degree (F := F) e) (broadcastInDim S100000 ![] bcast_S_S100000 (constant S_ .f32 0x00000000#32)))
    (Host.rsqrt (maximumf (degree (F := F) e) (broadcastInDim S100000 ![] bcast_S_S100000 (constant S_ .f32 0x3F800000#32))))
    (broadcastInDim S100000 ![] bcast_S_S100000 (id (constant S_ .f32 0x00000000#32)))

/-- Each edge's coefficient: the product of that quantity at its source and at its destination. -/
def coef (e : (⟨S2x1600000, .i32⟩ : BufTy).Contents (Elt F)) : (⟨S1700000, .f32⟩ : BufTy).Contents (Elt F) :=
  mulf (Host.gather gather_S100000_S1700000x1_S1700000_n_0_n_n_0_1_1 (invSqrtDeg (F := F) e) (wrapped (F := F) (srcs (F := F) e)))
    (Host.gather gather_S100000_S1700000x1_S1700000_n_0_n_n_0_1_1 (invSqrtDeg (F := F) e) (wrapped (F := F) (dsts (F := F) e)))

/-- THE AGGREGATE of a node array `xl` over the edges `e`: each edge's source row times the edge's coefficient, added up
    at the edge's destination. -/
def agg (xl : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (dsts (F := F) e))
    (mulf (Host.gather gather_S100000x128_S1700000x1_S1700000x128_1_0_n_n_0_1_1128 xl (wrapped (F := F) (srcs (F := F) e)))
      (broadcastInDim S1700000x128 ![0, 1] bcast_S1700000x1_S1700000x128_0_1
        (broadcastInDim S1700000x1 ![0] bcast_S1700000_S1700000x1_0 (coef (F := F) e))))

/-- The reference's aggregate is that chain of its projected array and the edge list. -/
theorem v70_eq (x0 : (⟨S100000x128, .f32⟩ : BufTy).Contents (Elt F)) (x3 x4 : (⟨S128, .f32⟩ : BufTy).Contents (Elt F))
    (x5 : (⟨S128x128, .f32⟩ : BufTy).Contents (Elt F)) (x7 : (⟨S2x1600000, .i32⟩ : BufTy).Contents (Elt F)) :
    val_main_v70 (F := F) x0 x3 x4 x5 x7 = agg (F := F) (val_main_v24 (F := F) x0 x3 x4 x5) x7 := rfl

end Chain

/-! ## The stages at an entry, at the ideal values -/

variable (x0 : (⟨S100000x128, .f32⟩ : BufTy).Contents (Elt Ideal)) (x3 x4 : (⟨S128, .f32⟩ : BufTy).Contents (Elt Ideal))
  (x5 : (⟨S128x128, .f32⟩ : BufTy).Contents (Elt Ideal))

theorem mean_apply (r : Fin 100000) (u : Fin 1) :
    val_main_v3 (F := Ideal) x0 (ix2 r u) = rowMean (fun k => x0 (ix2 r k)) := by
  rw [val_main_v3_apply, val_main_v1_apply, val_main_v0_apply, val_main_v2_apply, val_main_cst_0_apply, val_main_cst_apply]
  unfold rowMean
  show Ideal.div (Ideal.ofBits .f32 0x00000000#32 + ∑ k : Fin 128, x0 (idx_main_v0 (idx_main_v1 (ix2 r u)) k))
    (Ideal.ofBits .f32 0x43000000#32) = _
  rw [Ideal.ofBits_zero_f32, zero_add]
  refine congrArg (fun s => Ideal.div s _) (Finset.sum_congr rfl fun k _ => congrArg x0 ?_)
  exact funext fun a => Fin.ext (by match a with | ⟨0, _⟩ => rfl | ⟨1, _⟩ => rfl)

theorem centred_apply (r : Fin 100000) (k : Fin 128) :
    val_main_v5 (F := Ideal) x0 (ix2 r k) = centred (fun k' => x0 (ix2 r k')) k := by
  rw [val_main_v5_apply, val_main_v4_apply]
  have h : idx_main_v4 (ix2 r k) = ix2 r (0 : Fin 1) :=
    funext fun a => Fin.ext (by match a with | ⟨0, _⟩ => rfl | ⟨1, _⟩ => rfl)
  rw [h, mean_apply]
  rfl

theorem centred_apply' (r : Fin 100000) (k : Fin 128) :
    val_main_v12 (F := Ideal) x0 (ix2 r k) = centred (fun k' => x0 (ix2 r k')) k := by
  rw [val_main_v12_apply, val_main_v11_apply]
  have h : idx_main_v11 (ix2 r k) = ix2 r (0 : Fin 1) :=
    funext fun a => Fin.ext (by match a with | ⟨0, _⟩ => rfl | ⟨1, _⟩ => rfl)
  rw [h, mean_apply]
  rfl

theorem scale_apply (r : Fin 100000) (u : Fin 1) :
    val_main_v15 (F := Ideal) x0 (ix2 r u) = rowScale (fun k => x0 (ix2 r k)) := by
  rw [val_main_v15_apply, val_main_v14_apply, val_main_v10_apply, val_main_v8_apply, val_main_v7_apply, val_main_v9_apply,
    val_main_v13_apply, val_main_cst_1_apply, val_main_cst_2_apply, val_main_cst_3_apply]
  unfold rowScale rowMean
  show Ideal.rsqrt (Ideal.div (Ideal.ofBits .f32 0x00000000#32
      + ∑ k : Fin 128, val_main_v6 (F := Ideal) x0 (idx_main_v7 (idx_main_v8 (ix2 r u)) k)) (Ideal.ofBits .f32 0x43000000#32)
    + Ideal.ofBits .f32 0x3727C5AC#32) = _
  rw [Ideal.ofBits_zero_f32, zero_add]
  refine congrArg (fun s => Ideal.rsqrt (Ideal.div s _ + _)) (Finset.sum_congr rfl fun k _ => ?_)
  have h : idx_main_v7 (idx_main_v8 (ix2 r u)) k = ix2 r k :=
    funext fun a => Fin.ext (by match a with | ⟨0, _⟩ => rfl | ⟨1, _⟩ => rfl)
  rw [h, val_main_v6_apply, centred_apply]
  rfl

theorem normed_apply (r : Fin 100000) (k : Fin 128) :
    val_main_v23 (F := Ideal) x0 x3 x4 (ix2 r k)
      = normed (fun k' => x0 (ix2 r k')) (fun k' => x3 (ix1 k')) (fun k' => x4 (ix1 k')) k := by
  rw [val_main_v23_apply, val_main_v20_apply, val_main_v17_apply, val_main_v16_apply, val_main_v19_apply, val_main_v18_apply,
    val_main_v22_apply, val_main_v21_apply]
  have h16 : idx_main_v16 (ix2 r k) = ix2 r (0 : Fin 1) :=
    funext fun a => Fin.ext (by match a with | ⟨0, _⟩ => rfl | ⟨1, _⟩ => rfl)
  have h19 : idx_main_v18 (idx_main_v19 (ix2 r k)) = ix1 k :=
    funext fun a => Fin.ext (by match a with | ⟨0, _⟩ => rfl)
  have h22 : idx_main_v21 (idx_main_v22 (ix2 r k)) = ix1 k :=
    funext fun a => Fin.ext (by match a with | ⟨0, _⟩ => rfl)
  rw [h16, h19, h22, centred_apply', scale_apply]
  rfl

/-- THE PROJECTED ARRAY at `(r, q)`. -/
theorem projected_apply (r : Fin 100000) (q : Fin 128) :
    val_main_v24 (F := Ideal) x0 x3 x4 x5 (ix2 r q)
      = projected (fun k => x0 (ix2 r k)) (fun k => x3 (ix1 k)) (fun k => x4 (ix1 k)) (fun k q' => x5 (ix2 k q')) q := by
  rw [val_main_v24_apply]
  unfold projected
  refine Finset.sum_congr rfl fun k _ => ?_
  have hl : lidx_main_v24 (ix2 r q) k = ix2 r k :=
    funext fun a => Fin.ext (by match a with | ⟨0, _⟩ => rfl | ⟨1, _⟩ => rfl)
  have hr : ridx_main_v24 (ix2 r q) k = ix2 k q :=
    funext fun a => Fin.ext (by match a with | ⟨0, _⟩ => rfl | ⟨1, _⟩ => rfl)
  rw [hl, hr, normed_apply]

/-- THE RESULT at `(r, q)`: the aggregate's entry, the column's offset and the input's entry, combined. -/
theorem result_apply (x6 : (⟨S128, .f32⟩ : BufTy).Contents (Elt Ideal)) (x7 : (⟨S2x1600000, .i32⟩ : BufTy).Contents (Elt Ideal))
    (r : Fin 100000) (q : Fin 128) :
    val_main_v75 (F := Ideal) x0 x3 x4 x5 x6 x7 (ix2 r q)
      = combined (val_main_v70 (F := Ideal) x0 x3 x4 x5 x7 (ix2 r q)) (x6 (ix1 q)) (x0 (ix2 r q)) := by
  rw [val_main_v75_apply, val_main_v74_apply, val_main_v73_apply, val_main_v72_apply, val_main_v71_apply,
    val_main_call1_v0_apply, val_main_call1_cst_apply]
  have h : idx_main_v71 (idx_main_v72 (ix2 r q)) = ix1 q :=
    funext fun a => Fin.ext (by match a with | ⟨0, _⟩ => rfl)
  rw [h]
  rfl

end Cert.ReferenceIdeal.RefValue

end
-- ==== Proof.Bridge.lean ====
/-
  The two programs compute one array.

  The kernel's program leaves in its result buffer what its second kernel writes: `RowSpec.combined` of the
  aggregated array, the column offsets and the input, the aggregated array being the shared chain `agg` of what
  its first kernel wrote and the edge list, and what its first kernel wrote being `RowSpec.projected` of the input's
  rows. The reference's stages say the same of its own buffers, entry by entry; and the shared chain is one
  function in the two programs' spellings (the same operations over the same literal shapes and dimension
  records). So the kernel's result buffer holds the reference's last stage of the launched arguments.
-/
import proofs.«135919_j71743133712502_1_alg».proof.Proof.Region0Value
import proofs.«135919_j71743133712502_1_alg».proof.Proof.Region1Value
import proofs.«135919_j71743133712502_1_alg».proof.Proof.KernelBetween
import proofs.«135919_j71743133712502_1_alg».proof.Proof.RefValue

set_option maxRecDepth 16384

noncomputable section

namespace Cert.Bridge

open Idealize.ShloMosaic Idealize.ShloMosaic.TcCoe Idealize.ShloMosaic.ValueIdx Idealize.SL.Sem
open Cert.KernelIdeal Cert.KernelIdeal.Gen

/-- The aggregation chain is one function in the two programs' spellings. -/
theorem agg_same {F : FTy → Type} [FloatOps F] (xl : (⟨S100000x128, .f32⟩ : BufTy).Contents (Elt F))
    (e : (⟨S2x1600000, .i32⟩ : BufTy).Contents (Elt F)) :
    Cert.KernelIdeal.Between.agg (F := F) xl e = Cert.ReferenceIdeal.RefValue.agg (F := F) xl e := rfl

variable (m : (ℓ : Loc nD τ sig) → Buf (Elt Ideal) ℓ) (ρ : Dev nD → PrngReg)

/-- What the first kernel leaves is the reference's projected array of the launched arguments. -/
theorem projected_eq (c : Dev nD) :
    W1 m ρ c (Proc.devRef .tc main_v0)
      = Cert.ReferenceIdeal.Read.val_main_v24 (F := Ideal) (m ((c : Thread nD τ).loc main_arg0))
          (m ((c : Thread nD τ).loc main_arg3)) (m ((c : Thread nD τ).loc main_arg4)) (m ((c : Thread nD τ).loc main_arg5)) := by
  rw [show W1 m ρ c (Proc.devRef .tc main_v0) = (dat0 (V0 m ρ) c).arrAt 4 cfg0.N from W1_arr m ρ c 4]
  funext j
  obtain ⟨r, q, rfl⟩ : ∃ (r : Fin 100000) (q : Fin 128), j = ix2 r q := ⟨j 0, j 1, eq_ix2 j⟩
  rw [Cert.KernelIdeal.Region0.arrAt_apply, Cert.ReferenceIdeal.RefValue.projected_apply]

/-- What the second kernel finds in its first window is the reference's aggregate. -/
theorem aggregate_eq (c : Dev nD) :
    W4 m ρ c (Proc.devRef .tc main_v45)
      = Cert.ReferenceIdeal.Read.val_main_v70 (F := Ideal) (m ((c : Thread nD τ).loc main_arg0))
          (m ((c : Thread nD τ).loc main_arg3)) (m ((c : Thread nD τ).loc main_arg4)) (m ((c : Thread nD τ).loc main_arg5))
          (m ((c : Thread nD τ).loc main_arg7)) := by
  rw [Cert.KernelIdeal.Between.entry_agg, Cert.KernelIdeal.Between.edges_kept, projected_eq, agg_same,
    Cert.ReferenceIdeal.RefValue.v70_eq]

/-- THE KERNEL'S RESULT BUFFER holds the reference's last stage of the launched arguments. -/
theorem result_eq (c : Dev nD) :
    W5 m ρ c (Proc.devRef .tc main_v46)
      = Cert.ReferenceIdeal.Read.val_main_v75 (F := Ideal) (m ((c : Thread nD τ).loc main_arg0))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [show W5 m ρ c (Proc.devRef .tc main_v46) = (dat1 (V4 m ρ) c).arrAt 3 cfg1.N from W5_arr m ρ c 3]
  funext j
  obtain ⟨r, q, rfl⟩ : ∃ (r : Fin 100000) (q : Fin 128), j = ix2 r q := ⟨j 0, j 1, eq_ix2 j⟩
  rw [Cert.KernelIdeal.Region1.arrAt_apply, Cert.ReferenceIdeal.RefValue.result_apply]
  have h45 : V4 m ρ c main_v45 = _ := aggregate_eq m ρ c
  have h6 : V4 m ρ c main_arg6 = m ((c : Thread nD τ).loc main_arg6) := Cert.KernelIdeal.Between.entry_arg6 m ρ c
  have h0 : V4 m ρ c main_arg0 = m ((c : Thread nD τ).loc main_arg0) := Cert.KernelIdeal.Between.entry_arg0 m ρ c
  rw [h45, h6, h0]

end Cert.Bridge

end
-- ==== Proof.lean ====
/-
  The certificate of a graph-convolution block: a row normalisation followed by a 128 x 128 matrix product in one
  kernel, an aggregation over the graph's edges on the host, and offset + residual + clipping at zero in a second
  kernel, against the same computation written as one host program.

  The three programs run (the two kernel programs by their generated frames, the reference by its run read back);
  the idealisation rewrote nothing; and at the ideal values the two idealised programs end with equal results:
  the kernel program's result buffer holds the reference's last stage of the launched arguments (`Bridge.result_eq`:
  both are, entry by entry, the clipped sum of the aggregated projected rows, the column offset and the input), and
  the second result is an argument, unchanged by both.
-/
import proofs.«135919_j71743133712502_1_alg».proof.Defs
import proofs.«135919_j71743133712502_1_alg».proof.Proof.Gen.Kernel
import proofs.«135919_j71743133712502_1_alg».proof.Proof.Gen.Kernel.Skeleton
import proofs.«135919_j71743133712502_1_alg».proof.Proof.Gen.Kernel.Launch
import proofs.«135919_j71743133712502_1_alg».proof.Proof.Gen.Kernel.Points
import proofs.«135919_j71743133712502_1_alg».proof.Proof.Gen.Kernel.Frame
import proofs.«135919_j71743133712502_1_alg».proof.Proof.Gen.KernelIdeal
import proofs.«135919_j71743133712502_1_alg».proof.Proof.Gen.KernelIdeal.Skeleton
import proofs.«135919_j71743133712502_1_alg».proof.Proof.Gen.KernelIdeal.Launch
import proofs.«135919_j71743133712502_1_alg».proof.Proof.Gen.KernelIdeal.Points
import proofs.«135919_j71743133712502_1_alg».proof.Proof.Gen.KernelIdeal.Frame
import proofs.«135919_j71743133712502_1_alg».proof.Proof.Gen.ReferenceIdeal
import proofs.«135919_j71743133712502_1_alg».proof.Proof.Gen.Pre_finite_inputs
import proofs.«135919_j71743133712502_1_alg».proof.Proof.RefRun
import proofs.«135919_j71743133712502_1_alg».proof.Proof.RefRead
import proofs.«135919_j71743133712502_1_alg».proof.Proof.KernelRun
import proofs.«135919_j71743133712502_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both runs end with the reference's last stage of the kernel program's
    launched arguments in the first result and the third argument in the second. -/
theorem algebraic : Cert.algebraic_KernelIdeal_ReferenceIdeal := by
  intro m ρ m' ρ' _ hagree
  refine ⟨fun c => Cert.ReferenceIdeal.Read.val_main_v75 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => m ((c.tc : Thread Cert.KernelIdeal.nD Cert.KernelIdeal.τ).loc Cert.KernelIdeal.main_arg2), ?_, ?_⟩
  · exact (θ_run Cert.KernelIdeal.defs _ _).mono
      (fun r h c => ⟨(h c).1.trans (Cert.Bridge.result_eq m ρ c), (h c).2⟩)
      (Cert.KernelIdeal.GenRun.run_named (F := Ideal) m ρ)
  · refine (θ_run Cert.ReferenceIdeal.defs _ _).mono
      (fun r h c => ⟨(h c).1.trans ?_, (h c).2.1.trans (hagree c).2.2.1, (h c).2.2⟩)
      (Cert.ReferenceIdeal.Value.run (F := Ideal) m' ρ')
    obtain ⟨h0, -, -, h3, h4, h5, h6, h7, -⟩ := hagree c
    rw [Cert.ReferenceIdeal.Read.val_main_v75_eq, h0, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
